-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S64x162x1024 : Shape := ⟨3, ![64, 162, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S64x162x1024 : S_.BroadcastsInDim S64x162x1024 (![] : Fin 0 → Fin S64x162x1024.rank)
  reducesTo_S64x162x1024_S_d0_1_2 : S64x162x1024.ReducesTo [0, 1, 2] S_

variable [Facts]

def fn {F : FTy → Type} [FloatOps F] (main_arg0 : FVec F S2048x1024 .f32) (main_arg1 : FVec F S64x162x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S64x162x1024 .f32 := Host.absf main_arg1
  let main_cst_0 : FVec F S_ .f32 := constant S_ .f32 0x7F800000#32
  let main_v5 : FVec F S64x162x1024 .f32 := broadcastInDim S64x162x1024 ![] bcast_S_S64x162x1024 main_cst_0
  let main_v6 : IVec S64x162x1024 1 := cmpf .olt main_v4 main_v5
  let main_c_1 : IVec S_ 1 := constantI S_ 1 1#1
  let main_v7 : IVec S_ 1 := (fun x v => Host.reduce IntOp.andi x v reducesTo_S64x162x1024_S_d0_1_2 h_S_) main_v6 main_c_1
  let main_v8 : IVec S_ 1 := andi main_v3 main_v7
  main_v8
-- ==== Kernel.lean ====
abbrev S2048x1024 : Shape := ⟨2, ![2048, 1024]⟩
abbrev S64x162x1024 : Shape := ⟨3, ![64, 162, 1024]⟩
abbrev S10368x1024 : Shape := ⟨2, ![10368, 1024]⟩
abbrev S2048x10368 : Shape := ⟨2, ![2048, 10368]⟩
abbrev S256x1024 : Shape := ⟨2, ![256, 1024]⟩
abbrev S1152x1024 : Shape := ⟨2, ![1152, 1024]⟩
abbrev S256x1152 : Shape := ⟨2, ![256, 1152]⟩
abbrev S256 : Shape := ⟨1, ![256]⟩
abbrev S256x1 : Shape := ⟨2, ![256, 1]⟩
abbrev S1152 : Shape := ⟨1, ![1152]⟩
abbrev S1152x1 : Shape := ⟨2, ![1152, 1]⟩
abbrev S2048x64x162 : Shape := ⟨3, ![2048, 64, 162]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S64x162x1024, .f32⟩
  | .hbm, ⟨2, _⟩ => ⟨S10368x1024, .f32⟩
  | .hbm, ⟨3, _⟩ => ⟨S2048x10368, .f32⟩
  | .hbm, ⟨4, _⟩ => ⟨S2048x64x162, .f32⟩
  | .local _ .vmem, ⟨0, _⟩ => ⟨S256x1024, .f32⟩
  | .local _ .vmem, ⟨1, _⟩ => ⟨S256x1024, .f32⟩
  | .local _ .vmem, ⟨2, _⟩ => ⟨S1152x1024, .f32⟩
  | .local _ .vmem, ⟨3, _⟩ => ⟨S1152x1024, .f32⟩
  | .local _ .vmem, ⟨4, _⟩ => ⟨S256x1152, .f32⟩
  | .local _ .vmem, ⟨5, _⟩ => ⟨S256x1152, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1152x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S64x162x1024_S10368x1024 : S64x162x1024.ShapeCasts S10368x1024
  inb_S256x1024_S256x1024_0_0 : ∀ a, (![0, 0] : Fin 2 → Nat) a + S256x1024.size a ≤ S256x1024.size a
  h_S256x1024 : 0 < S256x1024.numel
  inb_S1152x1024_S1152x1024_0_0 : ∀ a, (![0, 0] : Fin 2 → Nat) a + S1152x1024.size a ≤ S1152x1024.size a
  h_S1152x1024 : 0 < S1152x1024.numel
  shapeCasts_S1152x1024_S1152x1024 : S1152x1024.ShapeCasts S1152x1024
  reduces_S256x1024_S256 : S256x1024.Reduces [1] S256
  shapeCasts_S256_S256x1 : S256.ShapeCasts S256x1
  broadcasts_S256x1_S256x1024 : S256x1.Broadcasts S256x1024
  reduces_S1152x1024_S1152 : S1152x1024.Reduces [1] S1152
  shapeCasts_S1152_S1152x1 : S1152.ShapeCasts S1152x1
  broadcasts_S1152x1_S1152x1024 : S1152x1.Broadcasts S1152x1024
  bitsLt_bf16_f32 : FTy.bits .bf16 < FTy.bits .f32
  inb_S256x1152_S256x1152_0_0 : ∀ a, (![0, 0] : Fin 2 → Nat) a + S256x1152.size a ≤ S256x1152.size a
  h_S256x1152 : 0 < S256x1152.numel
  shapeCasts_S2048x10368_S2048x64x162 : S2048x10368.ShapeCasts S2048x64x162
  dot_S256x1024_S1152x1024_S256x1152_1_1_0_0_n_n_wf : DotDims.WF S256x1024 S1152x1024 S256x1152 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S2048x1024.size a
  hwx0_0 : ∀ i : grid0.Coords, EltTy.bits .f32 = 32 ∨ (Rect.block (s := S2048x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1152x1024.size a ≤ S10368x1024.size a
  hwx0_1 : ∀ i : grid0.Coords, EltTy.bits .f32 = 32 ∨ (Rect.block (s := S10368x1024) S1152x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1152.size a ≤ S2048x10368.size a
  hwx0_2 : ∀ i : grid0.Coords, EltTy.bits .f32 = 32 ∨ (Rect.block (s := S2048x10368) S256x1152.size (cc0_transform_2 i) (hinb0_2 i)).WholeWords (EltTy.packing .f32)

variable [Facts₀]

def dot_S256x1024_S1152x1024_S256x1152_1_1_0_0_n_n : DotDims S256x1024 S1152x1024 S256x1152 where
  lhsContracting := [1]
  rhsContracting := [1]
  lhsNonContracting := [0]
  rhsNonContracting := [0]
  lhsBatch := []
  rhsBatch := []
  wf := dot_S256x1024_S1152x1024_S256x1152_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1152x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1152.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S64x162x1024 : Shape := ⟨3, ![64, 162, 1024]⟩
abbrev S_ : Shape := ⟨0, ![]⟩
abbrev S2048 : Shape := ⟨1, ![2048]⟩
abbrev S2048x1 : Shape := ⟨2, ![2048, 1]⟩
abbrev S64x162 : Shape := ⟨2, ![64, 162]⟩
abbrev S64x162x1 : Shape := ⟨3, ![64, 162, 1]⟩
abbrev S2048x64x162 : Shape := ⟨3, ![2048, 64, 162]⟩

abbrev nBuf : Space → Nat
  | .hbm => 31
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S64x162x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x1024, .f32⟩
  | .hbm, ⟨11, _⟩ => ⟨S2048x1024, .f32⟩
  | .hbm, ⟨12, _⟩ => ⟨S64x162x1024, .f32⟩
  | .hbm, ⟨13, _⟩ => ⟨S_, .f32⟩
  | .hbm, ⟨14, _⟩ => ⟨S64x162, .f32⟩
  | .hbm, ⟨15, _⟩ => ⟨S64x162x1, .f32⟩
  | .hbm, ⟨16, _⟩ => ⟨S64x162x1, .f32⟩
  | .hbm, ⟨17, _⟩ => ⟨S_, .f32⟩
  | .hbm, ⟨18, _⟩ => ⟨S64x162x1, .f32⟩
  | .hbm, ⟨19, _⟩ => ⟨S64x162x1, .f32⟩
  | .hbm, ⟨20, _⟩ => ⟨S64x162x1024, .f32⟩
  | .hbm, ⟨21, _⟩ => ⟨S64x162x1024, .f32⟩
  | .hbm, ⟨22, _⟩ => ⟨S2048x64x162, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2048x64x162, .f32⟩
  | .hbm, ⟨27, _⟩ => ⟨S2048x64x162, .f32⟩
  | .hbm, ⟨28, _⟩ => ⟨S_, .f32⟩
  | .hbm, ⟨29, _⟩ => ⟨S2048x64x162, .f32⟩
  | .hbm, ⟨30, _⟩ => ⟨S2048x64x162, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_cst_2 : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_v11 : Ref sig .tc := ⟨.hbm, 30, rfl⟩

abbrev nD : Nat := 1
abbrev τ : Topo := Topo.v7x

variable {F : FTy → Type} [FloatOps F]

class Facts₀ : Prop where
  reducesTo_S2048x1024_S2048_d1 : S2048x1024.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x1024_0_1 : S2048x1.BroadcastsInDim S2048x1024 (![0, 1] : Fin 2 → Fin S2048x1024.rank)
  reducesTo_S64x162x1024_S64x162_d2 : S64x162x1024.ReducesTo [2] S64x162
  bcast_S64x162_S64x162x1_0_1 : S64x162.BroadcastsInDim S64x162x1 (![0, 1] : Fin 2 → Fin S64x162x1.rank)
  bcast_S_S64x162x1 : S_.BroadcastsInDim S64x162x1 (![] : Fin 0 → Fin S64x162x1.rank)
  bcast_S64x162x1_S64x162x1024_0_1_2 : S64x162x1.BroadcastsInDim S64x162x1024 (![0, 1, 2] : Fin 3 → Fin S64x162x1024.rank)
  bcast_S_S2048x64x162 : S_.BroadcastsInDim S2048x64x162 (![] : Fin 0 → Fin S2048x64x162.rank)
  dot_S2048x1024_S64x162x1024_S2048x64x162_1_2_0_01_n_n_wf : DotDims.WF S2048x1024 S64x162x1024 S2048x64x162 [1] [2] [0] [0, 1] [] []

variable [Facts₀]

def dot_S2048x1024_S64x162x1024_S2048x64x162_1_2_0_01_n_n : DotDims S2048x1024 S64x162x1024 S2048x64x162 where
  lhsContracting := [1]
  rhsContracting := [2]
  lhsNonContracting := [0]
  rhsNonContracting := [0, 1]
  lhsBatch := []
  rhsBatch := []
  wf := dot_S2048x1024_S64x162x1024_S2048x64x162_1_2_0_01_n_n_wf

class Facts : Prop extends Facts₀ where

variable [Facts]
-- ==== Proof.Cosine.lean ====
/-
  The mathematics both programs compute, stated once over extended reals.

  A row `v` of 1024 entries has the unit form `v d / max (√(∑ₖ v k · v k)) ε` (the Euclidean length floored at the
  pattern `ε` both programs splat). The similarity of two rows is the inner product of their unit forms, clipped
  to `[0, 1]` — first `max` with zero, then `min` with one. `simFlat` lays the similarities of `Q` query rows
  against `N` reference rows out as a `[Q, N]` array; `simStack` is the same against a `[64, 162]` stack of reference
  rows, laid out `[2048, 64, 162]`. Reshaping the stack to `64 · 162 = 10368` flat rows and the flat result back is
  `simStack` (`reshape_simFlat`): row-major, row `(o, t)` of the stack is flat row `162 · o + t`.

  Also here, because it needs nothing of a program: a block of rows put through the vector operations
  `x / broadcast (max (sqrt (keepdims (∑ x·x))) ε)` is, entry by entry, the rows' unit forms (`unitRows_apply`).
-/
import Idealize.ShloMosaic.PureOps.Ideal.Laws
import Idealize.ShloMosaic.Lib.ValueIdx
import Idealize.ShloMosaic.Lib.Pipeline.Value

noncomputable section

namespace Cert.Cosine

open Idealize.ShloMosaic Idealize.ShloMosaic.ValueIdx

/-- Entry `d` of a row divided by the row's Euclidean length, the length floored at `ε`. -/
def unitEntry (v : Fin 1024 → EReal) (d : Fin 1024) : EReal :=
  Ideal.div (v d) (max (Ideal.sqrt (∑ k : Fin 1024, v k * v k)) (Ideal.ofBits .f32 0x2B8CBCCC#32))

/-- The inner product of two rows' unit forms, clipped below at zero and then above at one. -/
def clippedDot (u v : Fin 1024 → EReal) : EReal :=
  min (Ideal.ofBits .f32 0x3F800000#32) (max (Ideal.ofBits .f32 0x00000000#32) (∑ d : Fin 1024, unitEntry u d * unitEntry v d))

/-- Similarities of `Q` query rows against `N` flat reference rows. -/
def simFlat {Q N : Nat} (x : (⟨2, ![Q, 1024]⟩ : Shape).Idx → EReal) (z : (⟨2, ![N, 1024]⟩ : Shape).Idx → EReal) :
    (⟨2, ![Q, N]⟩ : Shape).Idx → EReal :=
  fun i => clippedDot (fun d => x (ix2 (⟨(i 0).val, (i 0).isLt⟩ : Fin Q) d)) (fun d => z (ix2 (⟨(i 1).val, (i 1).isLt⟩ : Fin N) d))

/-- Similarities of the 2048 query rows against the `[64, 162]` stack of reference rows. -/
def simStack (x : (⟨2, ![2048, 1024]⟩ : Shape).Idx → EReal) (y : (⟨3, ![64, 162, 1024]⟩ : Shape).Idx → EReal) :
    (⟨3, ![2048, 64, 162]⟩ : Shape).Idx → EReal :=
  fun i => clippedDot (fun d => x (ix2 (⟨(i 0).val, (i 0).isLt⟩ : Fin 2048) d))
    (fun d => y (ix3 (⟨(i 1).val, (i 1).isLt⟩ : Fin 64) (⟨(i 2).val, (i 2).isLt⟩ : Fin 162) d))

theorem simFlat_apply {Q N : Nat} (x : (⟨2, ![Q, 1024]⟩ : Shape).Idx → EReal) (z : (⟨2, ![N, 1024]⟩ : Shape).Idx → EReal)
    (p : Fin Q) (q : Fin N) : simFlat x z (ix2 p q) = clippedDot (fun d => x (ix2 p d)) (fun d => z (ix2 q d)) := rfl

/-- The stack flattened row-major, its similarities taken flat, and the result given its stack axes back: `simStack`. -/
theorem reshape_simFlat (x : (⟨2, ![2048, 1024]⟩ : Shape).Idx → EReal) (y : (⟨3, ![64, 162, 1024]⟩ : Shape).Idx → EReal)
    (h1 : (⟨3, ![64, 162, 1024]⟩ : Shape).ShapeCasts ⟨2, ![10368, 1024]⟩)
    (h2 : (⟨2, ![2048, 10368]⟩ : Shape).ShapeCasts ⟨3, ![2048, 64, 162]⟩) :
    shapeCast ⟨3, ![2048, 64, 162]⟩ (simFlat x (shapeCast ⟨2, ![10368, 1024]⟩ y h1)) h2 = simStack x y := by
  funext i
  obtain ⟨q, o, t, rfl⟩ : ∃ (q : Fin 2048) (o : Fin 64) (t : Fin 162), i = ix3 q o t := ⟨i 0, i 1, i 2, eq_ix3 i⟩
  have ho : o.val < 64 := o.isLt
  have ht : t.val < 162 := t.isLt
  have hn : o.val * 162 + t.val < 10368 := by omega
  refine (shapeCast_apply _ h2 (ix3 q o t) (ix2 q (⟨o.val * 162 + t.val, hn⟩ : Fin 10368)) ?_).trans ?_
  · rw [Shape.rowMajor_val_two, Shape.rowMajor_val_three]
    show q.val * 10368 + (o.val * 162 + t.val) = (q.val * 64 + o.val) * 162 + t.val
    omega
  · rw [simFlat_apply]
    show _ = clippedDot (fun d => x (ix2 q d)) (fun d => y (ix3 o t d))
    refine congrArg (clippedDot _) (funext fun d => ?_)
    refine shapeCast_apply _ h1 (ix2 (⟨o.val * 162 + t.val, hn⟩ : Fin 10368) d) (ix3 o t d) ?_
    rw [Shape.rowMajor_val_two, Shape.rowMajor_val_three]
    show (o.val * 162 + t.val) * 1024 + d.val = (o.val * 162 + t.val) * 1024 + d.val
    rfl

/-- A block of `n` rows divided, entry by entry, by the broadcast of its floored row lengths (the lengths a lane sum of
    squares, kept as a column, under a square root) holds each row's unit form. -/
theorem unitRows_apply {n : Nat} (v : FVec Ideal ⟨2, ![n, 1024]⟩ .f32)
    (hred : (⟨2, ![n, 1024]⟩ : Shape).Reduces [1] ⟨1, ![n]⟩) (hφ : FKind.Formats .f32)
    (hacc : (0x00000000#32 : BitVec 32) = FKind.add.neutral .f32 hφ)
    (hcast : (⟨1, ![n]⟩ : Shape).ShapeCasts ⟨2, ![n, 1]⟩)
    (hb : (⟨2, ![n, 1]⟩ : Shape).Broadcasts ⟨2, ![n, 1024]⟩) (p : Fin n) (d : Fin 1024) :
    divf v (broadcastTo ⟨2, ![n, 1024]⟩ (maximumf (sqrt (shapeCast ⟨2, ![n, 1]⟩
        (multiReduction .add [1] ⟨1, ![n]⟩ (mulf v v) 0x00000000#32 hred hφ hacc) hcast))
        (broadcast ⟨2, ![n, 1]⟩ (Scalar.ofBits .f32 0x2B8CBCCC#32))) hb) (ix2 p d)
      = unitEntry (fun k => v (ix2 p k)) d := by
  have hp : p.val < n := p.isLt
  show Ideal.div (v (ix2 p d)) (broadcastTo ⟨2, ![n, 1024]⟩ _ hb (ix2 p d)) = _
  rw [broadcastTo_apply _ hb (ix2 p d) (ix2 p (⟨0, Nat.one_pos⟩ : Fin 1)) (fun a => by
    match a with
    | ⟨0, _⟩ => show p.val = if n = 1 then 0 else p.val; split <;> omega
    | ⟨1, _⟩ => show 0 = if (1 : Nat) = 1 then 0 else d.val; rw [if_pos rfl])]
  show Ideal.div _ (max (Ideal.sqrt (shapeCast ⟨2, ![n, 1]⟩ _ hcast (ix2 p (⟨0, Nat.one_pos⟩ : Fin 1)))) _) = _
  rw [shapeCast_apply _ hcast (ix2 p (⟨0, Nat.one_pos⟩ : Fin 1)) (ix1 p) (by
    rw [Shape.rowMajor_val_one, Shape.rowMajor_val_two]; show p.val = p.val * 1 + 0; omega)]
  rw [Ideal.multiReduction_add_single (mulf v v) 0x00000000#32 hred hφ hacc (ix1 p)]
  unfold unitEntry
  refine congrArg (fun s => Ideal.div (v (ix2 p d)) (max (Ideal.sqrt s) _)) (Finset.sum_congr rfl fun k _ => ?_)
  have e : hred.lift (ix1 p) k = ix2 p k := funext fun a => Fin.ext (by match a with | ⟨0, _⟩ => rfl | ⟨1, _⟩ => rfl)
  show v (hred.lift (ix1 p) k) * v (hred.lift (ix1 p) k) = _
  rw [e]
  rfl

end Cert.Cosine

end
-- ==== Proof.KernelBlock.lean ====
/-
  What the kernel body stores, entry by entry: for a block `x0` of 256 query rows and a block `x1` of 1152 flat
  reference rows, entry `(p, q)` of the stored value is the clipped inner product of the unit forms of row `p` of `x0`
  and row `q` of `x1` (`payload_apply`).

  The body normalises both blocks (`Cosine.unitRows_apply`; the reference block first passes a shape cast to its own
  shape, which is the identity), narrows them to bf16 (at the extended reals a change of format is the identity),
  contracts the last axis of both into a zero accumulator (so entry `(p, q)` is `∑ d, a (p, d) · b (q, d)`: the
  contraction index is the one axis both operands give up, read through `contrEquiv1`), and clips.
-/
import proofs.«160861_j34454227648919_1_alg».proof.Proof.Gen.KernelIdeal.Skeleton
import proofs.«160861_j34454227648919_1_alg».proof.Proof.Cosine
import Idealize.ShloMosaic.PureOps.Ideal.Laws
import Idealize.ShloMosaic.Lib.ValueIdx
import Idealize.ShloMosaic.Lib.Pipeline.Value

noncomputable section

namespace Cert.KernelIdeal.Block

open Cert.KernelIdeal Cert.KernelIdeal.Gen
open Idealize.ShloMosaic Idealize.ShloMosaic.ValueIdx Cert.Cosine

/-- The left operand is read at the output's row … -/
theorem lhs_axis0 (i : S256x1152.Idx) (k : dot_S256x1024_S1152x1024_S256x1152_1_1_0_0_n_n.contr.Idx) :
    (dot_S256x1024_S1152x1024_S256x1152_1_1_0_0_n_n.lhsIdx i k 0).val = (i 0).val := by
  unfold DotDims.lhsIdx
  rw [dif_neg (show ¬(0 : Fin S256x1024.rank) ∈ dot_S256x1024_S1152x1024_S256x1152_1_1_0_0_n_n.lhsBatch by decide),
    dif_pos (show (0 : Fin S256x1024.rank) ∈ dot_S256x1024_S1152x1024_S256x1152_1_1_0_0_n_n.lhsNonContracting by decide)]
  rfl
/-- … and at the contraction index along its last axis. -/
theorem lhs_axis1 (i : S256x1152.Idx) (k : dot_S256x1024_S1152x1024_S256x1152_1_1_0_0_n_n.contr.Idx) :
    (dot_S256x1024_S1152x1024_S256x1152_1_1_0_0_n_n.lhsIdx i k 1).val = (k ⟨0, by decide⟩).val :=
  dot_S256x1024_S1152x1024_S256x1152_1_1_0_0_n_n.lhsIdx_val_of_single rfl i k
/-- The right operand is read at the output's COLUMN along its first axis … -/
theorem rhs_axis0 (i : S256x1152.Idx) (k : dot_S256x1024_S1152x1024_S256x1152_1_1_0_0_n_n.contr.Idx) :
    (dot_S256x1024_S1152x1024_S256x1152_1_1_0_0_n_n.rhsIdx i k 0).val = (i 1).val := by
  unfold DotDims.rhsIdx
  rw [dif_neg (show ¬(0 : Fin S1152x1024.rank) ∈ dot_S256x1024_S1152x1024_S256x1152_1_1_0_0_n_n.rhsBatch by decide),
    dif_pos (show (0 : Fin S1152x1024.rank) ∈ dot_S256x1024_S1152x1024_S256x1152_1_1_0_0_n_n.rhsNonContracting by decide)]
  rfl
/-- … and at the contraction index along its last axis. -/
theorem rhs_axis1 (i : S256x1152.Idx) (k : dot_S256x1024_S1152x1024_S256x1152_1_1_0_0_n_n.contr.Idx) :
    (dot_S256x1024_S1152x1024_S256x1152_1_1_0_0_n_n.rhsIdx i k 1).val = (k ⟨0, by decide⟩).val :=
  dot_S256x1024_S1152x1024_S256x1152_1_1_0_0_n_n.rhsIdx_val_of_single rfl i k

/-- Entry `(p, q)` of what the body stores: the clipped inner product of the unit forms of row `p` of the query
    block and row `q` of the reference block. -/
theorem payload_apply (x0 : Vec Ideal S256x1024 .f32) (x1 : Vec Ideal S1152x1024 .f32) (p : Fin 256) (q : Fin 1152) :
    k0_pay1 (F := Ideal) x0 x1 (ix2 p q) = clippedDot (fun d => x0 (ix2 p d)) (fun d => x1 (ix2 q d)) := by
  unfold k0_pay1
  show min (Ideal.ofBits .f32 0x3F800000#32) (max (Ideal.ofBits .f32 0x00000000#32)
    (FloatOps.matmul dot_S256x1024_S1152x1024_S256x1152_1_1_0_0_n_n none _ _ (constant S256x1152 .f32 0x00000000#32) (ix2 p q))) = _
  unfold clippedDot
  refine congrArg (fun s => min (Ideal.ofBits .f32 0x3F800000#32) (max (Ideal.ofBits .f32 0x00000000#32) s)) ?_
  refine (Ideal.matmul_constant_zero_apply dot_S256x1024_S1152x1024_S256x1152_1_1_0_0_n_n none _ _ (ix2 p q)).trans ?_
  rw [← Equiv.sum_comp (contrEquiv1 dot_S256x1024_S1152x1024_S256x1152_1_1_0_0_n_n 1024 rfl rfl).symm]
  refine Finset.sum_congr rfl fun k _ => ?_
  have hk := contrEquiv1_symm_val dot_S256x1024_S1152x1024_S256x1152_1_1_0_0_n_n 1024 rfl rfl k
  have el : dot_S256x1024_S1152x1024_S256x1152_1_1_0_0_n_n.lhsIdx (ix2 p q) ((contrEquiv1 dot_S256x1024_S1152x1024_S256x1152_1_1_0_0_n_n 1024 rfl rfl).symm k) = ix2 p k :=
    funext fun a => Fin.ext (by
      match a with
      | ⟨0, _⟩ => exact lhs_axis0 _ _
      | ⟨1, _⟩ => exact (lhs_axis1 _ _).trans hk)
  have er : dot_S256x1024_S1152x1024_S256x1152_1_1_0_0_n_n.rhsIdx (ix2 p q) ((contrEquiv1 dot_S256x1024_S1152x1024_S256x1152_1_1_0_0_n_n 1024 rfl rfl).symm k) = ix2 q k :=
    funext fun a => Fin.ext (by
      match a with
      | ⟨0, _⟩ => exact rhs_axis0 _ _
      | ⟨1, _⟩ => exact (rhs_axis1 _ _).trans hk)
  rw [el, er]
  refine congrArg₂ (· * ·) ?_ ?_
  · exact unitRows_apply x0 _ _ _ _ _ p k
  · refine (unitRows_apply (shapeCast S1152x1024 x1 _) _ _ _ _ _ q k).trans ?_
    rw [shapeCast_self]

end Cert.KernelIdeal.Block

end
-- ==== Proof.KernelValue.lean ====
/-
  The idealized kernel's run, read: its result array ends at `Cosine.simStack` of the two arguments.

  The program flattens the stack of reference rows to `[10368, 1024]` (`V_flat`), runs the body once per point of an
  `8 × 9` grid, and gives the flat `[2048, 10368]` result its stack axes back. At point `t` = (a, b) the body sees query rows
  `256·a …` and flat reference rows `1152·b …`, and what it writes back is block (a, b) of `Cosine.simFlat` of the whole arrays
  (`flushed_eq`: a block's coordinate is block index × block size + the coordinate inside the block, and the two input
  windows move with the output's row and column block index). The 72 blocks tile the array (`cover`: the point covering
  `(r, n)` has block indices `r / 256` and `n / 1152`), so the array after the region is `simFlat` (`final`); the reshape after
  the region turns it into `simStack` (`Cosine.reshape_simFlat`), which is the run's post (`run`).
-/
import proofs.«160861_j34454227648919_1_alg».proof.Proof.Gen.KernelIdeal.Frame
import proofs.«160861_j34454227648919_1_alg».proof.Proof.KernelBlock
import proofs.«160861_j34454227648919_1_alg».proof.Proof.Cosine
import Idealize.ShloMosaic.Lib.Pipeline.Value
import Idealize.ShloMosaic.Lib.StableHlo.Run
import Idealize.ShloMosaic.Lib.Tactic

noncomputable section

namespace Cert.KernelIdeal.Whole

open Cert.KernelIdeal Cert.KernelIdeal.Gen
open Idealize.ShloMosaic Idealize.ShloMosaic.TcCoe Idealize.SL.Sem Idealize.ShloMosaic.ValueIdx Cert.Cosine
open Idealize.ShloMosaic.Pipeline (Dat)

variable (m : (ℓ : Loc nD τ sig) → Buf (Elt Ideal) ℓ) (ρ : Dev nD → PrngReg)

/-- The queries, the stack of reference rows, and the stack flattened row-major, as launched on core `c`. -/
abbrev queries (c : Dev nD) : S2048x1024.Idx → EReal := m ((c : Thread nD τ).loc main_arg0)
abbrev stack (c : Dev nD) : S64x162x1024.Idx → EReal := m ((c : Thread nD τ).loc main_arg1)
abbrev flatRows (c : Dev nD) : S10368x1024.Idx → EReal :=
  shapeCast S10368x1024 (stack m c) Gen.shapeCasts_S64x162x1024_S10368x1024

theorem hz : (![0, 0] : Fin 2 → Nat) = fun _ => 0 := funext fun a => by fin_cases a <;> rfl

/-- The region finds the queries as launched … -/
theorem V_queries (c : Dev nD) : (V m c main_arg0 : S2048x1024.Idx → EReal) = queries m c := V_main_arg0 m c

/-- … and its second operand at the stack flattened: the one host operation before the region. -/
theorem V_flat (c : Dev nD) : (V m c main_v0 : S10368x1024.Idx → EReal) = flatRows m c := by
  show StableHlo.after hostOps0 (fun b => m (c, b)) (Proc.devRef .tc main_v0) = _
  after_results
  rfl

/-- The printed index maps over the grid: the query window follows the output's row block, the reference window the
    output's column block, neither moves along the contracted axis, and the output's block indices range over 8 × 9. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 8 :=
  (by decide +kernel : ∀ t : Fin grid0.N, _)

/-- Every pair of block indices is some point's. -/
theorem idx_onto : ∀ (a : Fin 8) (b : Fin 9), ∃ t : Fin cfg0.N, win0_2.index t = ![a.val, b.val] :=
  (by decide +kernel : ∀ (a : Fin 8) (b : Fin 9), ∃ t : Fin grid0.N, win0_2.index t = ![a.val, b.val])

/-- What point `t` writes back is block `t` of the flat similarities of the whole arrays. -/
theorem flushed_eq (c : Dev nD) (t : Fin cfg0.N) :
    (dats m 0 c).flushed 2 t = ((cfg0.win 2).blk t).view.read (Elt Ideal) (simFlat (queries m c) (flatRows m c)) := by
  show (cfg0.win 2).cut (grid0.coords t) ((dats m 0 c).after 2 t) = _
  rw [after0_2]
  unfold out0_2
  rw [View.canon_unit_zero hz]
  simp only [View.ld_unit_zero (S := S256x1024) hz, View.ld_unit_zero (S := S1152x1024) hz]
  obtain ⟨e0, e1, e2, e3, -, -⟩ := idx_facts t
  refine funext fun (j : S256x1152.Idx) => ?_
  obtain ⟨p, q, rfl⟩ : ∃ (p : Fin 256) (q : Fin 1152), j = ix2 p q := ⟨j 0, j 1, eq_ix2 j⟩
  show k0_pay1 (F := Ideal) (iblk m c 0 t) (iblk m c 1 t) (ix2 p q)
    = simFlat (queries m c) (flatRows m c) (((cfg0.win 2).blk t).view.emb (ix2 p q))
  refine (Block.payload_apply (iblk m c 0 t) (iblk m c 1 t) p q).trans ?_
  unfold simFlat
  refine congrArg₂ clippedDot (funext fun d => ?_) (funext fun d => ?_)
  · show V m c main_arg0 (((cfg0.win 0).blk t).view.emb (ix2 p d)) = _
    refine (congrFun (V_queries m c) _).trans (congrArg (queries m c) ?_)
    funext a; apply Fin.ext
    match a with
    | ⟨0, _⟩ =>
      show win0_0.index t (0 : Fin 2) * 256 + 1 * p.val = win0_2.index t (0 : Fin 2) * 256 + 1 * p.val
      omega
    | ⟨1, _⟩ =>
      show win0_0.index t (1 : Fin 2) * 1024 + 1 * d.val = d.val
      omega
  · show V m c main_v0 (((cfg0.win 1).blk t).view.emb (ix2 q d)) = _
    refine (congrFun (V_flat m c) _).trans (congrArg (flatRows m c) ?_)
    funext a; apply Fin.ext
    match a with
    | ⟨0, _⟩ =>
      show win0_1.index t (0 : Fin 2) * 1152 + 1 * q.val = win0_2.index t (1 : Fin 2) * 1152 + 1 * q.val
      omega
    | ⟨1, _⟩ =>
      show win0_1.index t (1 : Fin 2) * 1024 + 1 * d.val = d.val
      omega

/-- An index of the flat result is in point `t`'s block iff each coordinate is in the block's range on its axis. -/
theorem mem_blk (t : Fin cfg0.N) (i : S2048x10368.Idx) :
    i ∈ ((cfg0.win 2).blk t).view.set ↔ ∀ a : Fin 2, win0_2.index t a * S256x1152.size a ≤ (i a).val
      ∧ (i a).val < win0_2.index t a * S256x1152.size a + S256x1152.size a := by
  show i ∈ ((View.whole main_v1).slice (win0_2.rect t)).set ↔ _
  rw [View.set_slice_whole, Rect.mem_set_unit]
  exact Iff.rfl

/-- The 72 blocks cover the flat result: `(r, n)` lies in the block with indices `r / 256` and `n / 1152`. -/
theorem cover (i : S2048x10368.Idx) :
    ∃ t : Fin cfg0.N, (cfg0.win 2).flush t = true ∧ i ∈ ((cfg0.win 2).blk t).view.set := by
  have hi0 : (i 0).val < 2048 := (i 0).isLt
  have hi1 : (i 1).val < 10368 := (i 1).isLt
  obtain ⟨t, ht⟩ := idx_onto ⟨(i 0).val / 256, by omega⟩ ⟨(i 1).val / 1152, by omega⟩
  have q0 : win0_2.index t (0 : Fin 2) = (i 0).val / 256 := congrFun ht 0
  have q1 : win0_2.index t (1 : Fin 2) = (i 1).val / 1152 := congrFun ht 1
  refine ⟨t, flush0_2 t, ?_⟩
  rw [mem_blk]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 1152 ≤ (i 1).val ∧ (i 1).val < win0_2.index t (1 : Fin 2) * 1152 + 1152
    omega

/-- The flat result after the region: the similarities of the queries against the flattened stack. -/
theorem final (c : Dev nD) : (dats m 0 c).arrAt 2 cfg0.N = simFlat (queries m c) (flatRows m c) :=
  (dats m 0 c).arrAt_eq_of_cover 2 (simFlat (queries m c) (flatRows m c)) (fun t _ => flushed_eq m c t) cover

/-- The program's result: the reshape after the region gives the flat similarities their stack axes back. -/
theorem result_eq (c : Dev nD) :
    Pipeline.afterTail₀ cfgs (dats m) 0 (V0 m) [hostOps1] c main_v2 = simStack (queries m c) (stack m c) := by
  have hw : Pipeline.withArrays spec0 c (V0 m c) (fun w => (dats m 0 c).arrAt w cfg0.N) (Proc.devRef .tc main_v1)
      = simFlat (queries m c) (flatRows m c) :=
    (Pipeline.withArrays_arr spec0 launch0.win.arr_inj c _ _ 2).trans (final m c)
  unfold Pipeline.afterTail₀
  show StableHlo.after hostOps1 _ (Proc.devRef .tc main_v2) = _
  after_results
  show shapeCast S2048x64x162 (Pipeline.withArrays spec0 c (V0 m c) (fun w => (dats m 0 c).arrAt w cfg0.N)
    (Proc.devRef .tc main_v1)) Gen.shapeCasts_S2048x10368_S2048x64x162 = _
  rw [hw]
  exact reshape_simFlat _ _ _ _

/-- The run, read: every weakly fair execution ends with the result array at the stack similarities of the arguments
    as launched, and the arguments unchanged. -/
theorem run : θ_run defs (onTc (τ := τ) (main (F := Ideal))) ⟨m, fun _ => 0, ρ⟩ fun r => ∀ c : Dev nD,
      r.2.mem ((c : Thread nD τ).loc main_v2) = simStack (queries m c) (stack m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v2 (Pipeline.mem_restRefs_of main_v2 (by decide) (by decide))).trans (result_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.Whole

end
-- ==== Proof.ReferenceValue.lean ====
/-
  The reference, read at an index, is `Cosine.simStack` of its two arguments.

  Its two normalised arrays hold each row's unit form (`unit_query`, `unit_stack`): the sum of squares along the last
  axis starts from the zero word, so it is the plain sum; the square root, the floor and the quotient are the same
  operations the specification names. Its contraction over the last axes of both arrays is, at `(q, o, t)`, the sum over
  `d` of the two unit forms' products, and its clip is `max` with zero followed by `min` with one (`reference_eq`).
-/
import proofs.«160861_j34454227648919_1_alg».proof.Proof.Gen.ReferenceIdeal.Read
import proofs.«160861_j34454227648919_1_alg».proof.Proof.Cosine

noncomputable section

namespace Cert.ReferenceIdeal.RefValue

open Cert.ReferenceIdeal Cert.ReferenceIdeal.Gen Cert.ReferenceIdeal.Read
open Idealize.ShloMosaic Idealize.ShloMosaic.ValueIdx Cert.Cosine

/-- Entry `(q, d)` of the normalised queries is the unit form of query row `q` at `d`. -/
theorem unit_query (x0 : (⟨S2048x1024, .f32⟩ : BufTy).Contents (Elt Ideal)) (q : Fin 2048) (d : Fin 1024) :
    val_main_v4 (F := Ideal) x0 (ix2 q d) = unitEntry (fun k => x0 (ix2 q k)) d := by
  rw [val_main_v4_apply, val_main_v3_apply, val_main_v2_apply, val_main_v0_apply, val_main_call0_v2_apply,
    val_main_call0_v1_apply, val_main_v1_apply, val_main_cst_apply, val_main_call0_cst_apply]
  simp only [Ideal.hostDivf_def, Ideal.maximumf_def, Ideal.hostUnary_sqrt_def, Ideal.ofBits_def, Ideal.ofBits_zero_f32, zero_add]
  unfold unitEntry
  refine congrArg (fun s => Ideal.div (x0 (ix2 q d)) (max (Ideal.sqrt s) _)) (Finset.sum_congr rfl fun k _ => ?_)
  rw [val_main_call0_v0_apply]
  have e : idx_main_call0_v1 (idx_main_call0_v2 (idx_main_v3 (ix2 q d))) k = ix2 q k :=
    funext fun a => Fin.ext (by match a with | ⟨0, _⟩ => rfl | ⟨1, _⟩ => rfl)
  rw [e]
  rfl

/-- Entry `(o, t, d)` of the normalised stack is the unit form of stack row `(o, t)` at `d`. -/
theorem unit_stack (x1 : (⟨S64x162x1024, .f32⟩ : BufTy).Contents (Elt Ideal)) (o : Fin 64) (t : Fin 162) (d : Fin 1024) :
    val_main_v9 (F := Ideal) x1 (ix3 o t d) = unitEntry (fun k => x1 (ix3 o t k)) d := by
  rw [val_main_v9_apply, val_main_v8_apply, val_main_v7_apply, val_main_v5_apply, val_main_call1_v2_apply,
    val_main_call1_v1_apply, val_main_v6_apply, val_main_cst_0_apply, val_main_call1_cst_apply]
  simp only [Ideal.hostDivf_def, Ideal.maximumf_def, Ideal.hostUnary_sqrt_def, Ideal.ofBits_def, Ideal.ofBits_zero_f32, zero_add]
  unfold unitEntry
  refine congrArg (fun s => Ideal.div (x1 (ix3 o t d)) (max (Ideal.sqrt s) _)) (Finset.sum_congr rfl fun k _ => ?_)
  rw [val_main_call1_v0_apply]
  have e : idx_main_call1_v1 (idx_main_call1_v2 (idx_main_v8 (ix3 o t d))) k = ix3 o t k :=
    funext fun a => Fin.ext (by match a with | ⟨0, _⟩ => rfl | ⟨1, _⟩ => rfl | ⟨2, _⟩ => rfl)
  rw [e]
  rfl

/-- The reference's result array is the clipped inner products of the rows' unit forms. -/
theorem reference_eq (x0 : (⟨S2048x1024, .f32⟩ : BufTy).Contents (Elt Ideal)) (x1 : (⟨S64x162x1024, .f32⟩ : BufTy).Contents (Elt Ideal)) :
    val_main_v11 (F := Ideal) x0 x1 = simStack x0 x1 := by
  funext i
  rw [val_main_v11_apply, val_main_call2_v2_apply, val_main_call2_v4_apply, val_main_call2_v3_apply, val_main_cst_2_apply,
    val_main_call2_v1_apply, val_main_call2_v0_apply, val_main_cst_1_apply, val_main_v10_apply]
  simp only [Ideal.minimumf_def, Ideal.maximumf_def, Ideal.ofBits_def]
  unfold simStack clippedDot
  refine congrArg (fun s => min (Ideal.ofBits .f32 0x3F800000#32) (max (Ideal.ofBits .f32 0x00000000#32) s)) (Finset.sum_congr rfl fun k _ => ?_)
  have el : lidx_main_v10 i k = ix2 (⟨(i 0).val, (i 0).isLt⟩ : Fin 2048) k :=
    funext fun a => Fin.ext (by match a with | ⟨0, _⟩ => rfl | ⟨1, _⟩ => rfl)
  have er : ridx_main_v10 i k = ix3 (⟨(i 1).val, (i 1).isLt⟩ : Fin 64) (⟨(i 2).val, (i 2).isLt⟩ : Fin 162) k :=
    funext fun a => Fin.ext (by match a with | ⟨0, _⟩ => rfl | ⟨1, _⟩ => rfl | ⟨2, _⟩ => rfl)
  rw [el, er, unit_query, unit_stack]

end Cert.ReferenceIdeal.RefValue

end
-- ==== Proof.lean ====
/-
  The certificate: a 2048 × 1024 array of queries and a 64 × 162 stack of 1024-entry reference rows go to the
  2048 × 64 × 162 array of clipped cosine similarities.

  Both idealized programs compute `Cosine.simStack`: the kernel block by block over the flattened stack
  (Proof/KernelValue.lean, over what its body stores, Proof/KernelBlock.lean), the reference by whole-array operations
  (Proof/ReferenceValue.lean). No law of the extended reals beyond reading the sums in one order is used, so the
  precondition is never opened. The three frames are the programs' runs with the results dropped; the idealization
  rewrote nothing, so there is nothing to preserve.
-/
import proofs.«160861_j34454227648919_1_alg».proof.Defs
import proofs.«160861_j34454227648919_1_alg».proof.Proof.Gen.Kernel
import proofs.«160861_j34454227648919_1_alg».proof.Proof.Gen.Kernel.Frame
import proofs.«160861_j34454227648919_1_alg».proof.Proof.Gen.KernelIdeal
import proofs.«160861_j34454227648919_1_alg».proof.Proof.Gen.KernelIdeal.Frame
import proofs.«160861_j34454227648919_1_alg».proof.Proof.Gen.ReferenceIdeal
import proofs.«160861_j34454227648919_1_alg».proof.Proof.Gen.ReferenceIdeal.Run
import proofs.«160861_j34454227648919_1_alg».proof.Proof.Gen.ReferenceIdeal.Read
import proofs.«160861_j34454227648919_1_alg».proof.Proof.Gen.Pre_finite_inputs
import proofs.«160861_j34454227648919_1_alg».proof.Proof.KernelValue
import proofs.«160861_j34454227648919_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the two arguments both runs end with the result array at `Cosine.simStack` of them. -/
theorem algebraic : Cert.algebraic_KernelIdeal_ReferenceIdeal := by
  intro m ρ m' ρ' _ hagree
  refine ⟨fun c => Cert.Cosine.simStack (Cert.KernelIdeal.Whole.queries m c) (Cert.KernelIdeal.Whole.stack m c),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v11_eq _ _).trans (Cert.ReferenceIdeal.RefValue.reference_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
